-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x4096x8x8 : Shape := ⟨4, ![128, 4096, 8, 8]⟩
abbrev S_ : Shape := ⟨0, ![]⟩

class Facts : Prop where
  bcast_S_S128x4096x8x8 : S_.BroadcastsInDim S128x4096x8x8 (![] : Fin 0 → Fin S128x4096x8x8.rank)
  reducesTo_S128x4096x8x8_S_d0_1_2_3 : S128x4096x8x8.ReducesTo [0, 1, 2, 3] S_
  h_S_ : 0 < S_.numel

variable [Facts]

def fn {F : FTy → Type} [FloatOps F] (main_arg0 : FVec F S128x4096x8x8 .f32) : IVec S_ 1 :=
  let main_v0 : FVec F S128x4096x8x8 .f32 := Host.absf main_arg0
  let main_cst : FVec F S_ .f32 := constant S_ .f32 0x7F800000#32
  let main_v1 : FVec F S128x4096x8x8 .f32 := broadcastInDim S128x4096x8x8 ![] bcast_S_S128x4096x8x8 main_cst
  let main_v2 : IVec S128x4096x8x8 1 := cmpf .olt main_v0 main_v1
  let main_c : IVec S_ 1 := constantI S_ 1 1#1
  let main_v3 : IVec S_ 1 := (fun x v => Host.reduce IntOp.andi x v reducesTo_S128x4096x8x8_S_d0_1_2_3 h_S_) main_v2 main_c
  main_v3
-- ==== Kernel.lean ====
abbrev S128x4096x8x8 : Shape := ⟨4, ![128, 4096, 8, 8]⟩
abbrev S64x64 : Shape := ⟨2, ![64, 64]⟩
abbrev S128x8x8x4096 : Shape := ⟨4, ![128, 8, 8, 4096]⟩
abbrev S128x8x8x32x128 : Shape := ⟨5, ![128, 8, 8, 32, 128]⟩
abbrev S128x8x32x8x128 : Shape := ⟨5, ![128, 8, 32, 8, 128]⟩
abbrev S4x8x32x8x128 : Shape := ⟨5, ![4, 8, 32, 8, 128]⟩
abbrev S4x32x8x8x128 : Shape := ⟨5, ![4, 32, 8, 8, 128]⟩
abbrev S128x64x128 : Shape := ⟨3, ![128, 64, 128]⟩
abbrev S1x64x64 : Shape := ⟨3, ![1, 64, 64]⟩
abbrev S128x64x64 : Shape := ⟨3, ![128, 64, 64]⟩
abbrev S128x32x128x8x8 : Shape := ⟨5, ![128, 32, 128, 8, 8]⟩
abbrev S128x4096x64 : Shape := ⟨3, ![128, 4096, 64]⟩

abbrev nBuf : Space → Nat
  | .hbm => 8
  | .vmem => 5
  | .smem => 0
  | _ => 0

abbrev bufTy : (tb : Table) → Fin (tcTables nBuf tb) → BufTy
  | .hbm, ⟨0, _⟩ => ⟨S128x4096x8x8, .f32⟩
  | .hbm, ⟨1, _⟩ => ⟨S64x64, .f32⟩
  | .hbm, ⟨2, _⟩ => ⟨S128x8x8x4096, .f32⟩
  | .hbm, ⟨3, _⟩ => ⟨S128x8x8x32x128, .f32⟩
  | .hbm, ⟨4, _⟩ => ⟨S128x8x32x8x128, .f32⟩
  | .hbm, ⟨5, _⟩ => ⟨S128x8x32x8x128, .f32⟩
  | .hbm, ⟨6, _⟩ => ⟨S128x32x128x8x8, .f32⟩
  | .hbm, ⟨7, _⟩ => ⟨S128x4096x64, .f32⟩
  | .local _ .vmem, ⟨0, _⟩ => ⟨S64x64, .f32⟩
  | .local _ .vmem, ⟨1, _⟩ => ⟨S4x8x32x8x128, .f32⟩
  | .local _ .vmem, ⟨2, _⟩ => ⟨S4x8x32x8x128, .f32⟩
  | .local _ .vmem, ⟨3, _⟩ => ⟨S4x8x32x8x128, .f32⟩
  | .local _ .vmem, ⟨4, _⟩ => ⟨S4x8x32x8x128, .f32⟩
  | _, _ => ⟨S128x4096x8x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_2 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

abbrev stage0_0 : Fin 1 → Memref sig .tc .vmem S64x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4x8x32x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x8x32x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S128x4096x8x8_S128x8x8x4096_0_2_3_1 : S128x4096x8x8.Transposes [0, 2, 3, 1] S128x8x8x4096
  shapeCasts_S128x8x8x4096_S128x8x8x32x128 : S128x8x8x4096.ShapeCasts S128x8x8x32x128
  transposes_S128x8x8x32x128_S128x8x32x8x128_0_1_3_2_4 : S128x8x8x32x128.Transposes [0, 1, 3, 2, 4] S128x8x32x8x128
  inb_S4x8x32x8x128_S4x8x32x8x128_0_0_0_0_0 : ∀ a, (![0, 0, 0, 0, 0] : Fin 5 → Nat) a + S4x8x32x8x128.size a ≤ S4x8x32x8x128.size a
  h_S4x8x32x8x128 : 0 < S4x8x32x8x128.numel
  shapeCasts_S4x8x32x8x128_S4x8x32x8x128 : S4x8x32x8x128.ShapeCasts S4x8x32x8x128
  transposes_S4x8x32x8x128_p0_2_1_3_4_S4x32x8x8x128 : S4x8x32x8x128.Transposes [0, 2, 1, 3, 4] S4x32x8x8x128
  shapeCasts_S4x32x8x8x128_S128x64x128 : S4x32x8x8x128.ShapeCasts S128x64x128
  inb_S64x64_S64x64_0_0 : ∀ a, (![0, 0] : Fin 2 → Nat) a + S64x64.size a ≤ S64x64.size a
  h_S64x64 : 0 < S64x64.numel
  shapeCasts_S64x64_S1x64x64 : S64x64.ShapeCasts S1x64x64
  shapeCasts_S1x64x64_S1x64x64 : S1x64x64.ShapeCasts S1x64x64
  broadcasts_S1x64x64_S128x64x64 : S1x64x64.Broadcasts S128x64x64
  shapeCasts_S128x64x128_S4x32x8x8x128 : S128x64x128.ShapeCasts S4x32x8x8x128
  transposes_S4x32x8x8x128_p0_2_1_3_4_S4x8x32x8x128 : S4x32x8x8x128.Transposes [0, 2, 1, 3, 4] S4x8x32x8x128
  transposes_S128x8x32x8x128_S128x32x128x8x8_0_2_4_1_3 : S128x8x32x8x128.Transposes [0, 2, 4, 1, 3] S128x32x128x8x8
  shapeCasts_S128x32x128x8x8_S128x4096x64 : S128x32x128x8x8.ShapeCasts S128x4096x64
  dot_S128x64x64_S128x64x128_S128x64x128_2_1_1_2_0_0_wf : DotDims.WF S128x64x64 S128x64x128 S128x64x128 [2] [1] [1] [2] [0] [0]
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x64.size a ≤ S64x64.size a
  hwx0_0 : ∀ i : grid0.Coords, EltTy.bits .f32 = 32 ∨ (Rect.block (s := S64x64) S64x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x8x32x8x128.size a ≤ S128x8x32x8x128.size a
  hwx0_1 : ∀ i : grid0.Coords, EltTy.bits .f32 = 32 ∨ (Rect.block (s := S128x8x32x8x128) S4x8x32x8x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x8x32x8x128.size a ≤ S128x8x32x8x128.size a
  hwx0_2 : ∀ i : grid0.Coords, EltTy.bits .f32 = 32 ∨ (Rect.block (s := S128x8x32x8x128) S4x8x32x8x128.size (cc0_transform_2 i) (hinb0_2 i)).WholeWords (EltTy.packing .f32)

variable [Facts₀]

def dot_S128x64x64_S128x64x128_S128x64x128_2_1_1_2_0_0 : DotDims S128x64x64 S128x64x128 S128x64x128 where
  lhsContracting := [2]
  rhsContracting := [1]
  lhsNonContracting := [1]
  rhsNonContracting := [2]
  lhsBatch := [0]
  rhsBatch := [0]
  wf := dot_S128x64x64_S128x64x128_S128x64x128_2_1_1_2_0_0_wf

abbrev win0_0 : Pipeline.Window sig grid0 :=
  Pipeline.Window.ofSpec (Memref.whole main_cst) S64x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v2) S4x8x32x8x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S4x8x32x8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S128x4096x8x8 : Shape := ⟨4, ![128, 4096, 8, 8]⟩
abbrev S64 : Shape := ⟨1, ![64]⟩
abbrev S128x4096x64 : Shape := ⟨3, ![128, 4096, 64]⟩
abbrev S_ : Shape := ⟨0, ![]⟩
abbrev S64x1 : Shape := ⟨2, ![64, 1]⟩
abbrev S1 : Shape := ⟨1, ![1]⟩
abbrev S1x1 : Shape := ⟨2, ![1, 1]⟩

abbrev nBuf : Space → Nat
  | .hbm => 26
  | .vmem => 0
  | .smem => 0
  | _ => 0

abbrev bufTy : (tb : Table) → Fin (tcTables nBuf tb) → BufTy
  | .hbm, ⟨0, _⟩ => ⟨S128x4096x8x8, .f32⟩
  | .hbm, ⟨1, _⟩ => ⟨S64, .i32⟩
  | .hbm, ⟨2, _⟩ => ⟨S128x4096x64, .f32⟩
  | .hbm, ⟨3, _⟩ => ⟨S_, .i32⟩
  | .hbm, ⟨4, _⟩ => ⟨S64, .i32⟩
  | .hbm, ⟨5, _⟩ => ⟨S64, .i1⟩
  | .hbm, ⟨6, _⟩ => ⟨S_, .i32⟩
  | .hbm, ⟨7, _⟩ => ⟨S64, .i32⟩
  | .hbm, ⟨8, _⟩ => ⟨S64, .i32⟩
  | .hbm, ⟨9, _⟩ => ⟨S64, .i32⟩
  | .hbm, ⟨10, _⟩ => ⟨S64x1, .i32⟩
  | .hbm, ⟨11, _⟩ => ⟨S1, .i32⟩
  | .hbm, ⟨12, _⟩ => ⟨S_, .i32⟩
  | .hbm, ⟨13, _⟩ => ⟨S64x1, .i32⟩
  | .hbm, ⟨14, _⟩ => ⟨S64x1, .i1⟩
  | .hbm, ⟨15, _⟩ => ⟨S1x1, .i32⟩
  | .hbm, ⟨16, _⟩ => ⟨S64x1, .i32⟩
  | .hbm, ⟨17, _⟩ => ⟨S64x1, .i1⟩
  | .hbm, ⟨18, _⟩ => ⟨S64x1, .i1⟩
  | .hbm, ⟨19, _⟩ => ⟨S_, .i1⟩
  | .hbm, ⟨20, _⟩ => ⟨S64, .i1⟩
  | .hbm, ⟨21, _⟩ => ⟨S128x4096x64, .f32⟩
  | .hbm, ⟨22, _⟩ => ⟨S128x4096x64, .i1⟩
  | .hbm, ⟨23, _⟩ => ⟨S_, .f32⟩
  | .hbm, ⟨24, _⟩ => ⟨S128x4096x64, .f32⟩
  | .hbm, ⟨25, _⟩ => ⟨S128x4096x64, .f32⟩
  | _, _ => ⟨S128x4096x8x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩

abbrev nD : Nat := 1
abbrev τ : Topo := Topo.v7x

variable {F : FTy → Type} [FloatOps F]

class Facts₀ : Prop where
  shapeCasts_S128x4096x8x8_S128x4096x64 : S128x4096x8x8.ShapeCasts S128x4096x64
  bcast_S_S64 : S_.BroadcastsInDim S64 (![] : Fin 0 → Fin S64.rank)
  bcast_S64_S64x1_0 : S64.BroadcastsInDim S64x1 (![0] : Fin 1 → Fin S64x1.rank)
  bcast_S_S64x1 : S_.BroadcastsInDim S64x1 (![] : Fin 0 → Fin S64x1.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  reducesTo_S64x1_S64_d1 : S64x1.ReducesTo [1] S64
  h_S_ : 0 < S_.numel
  bcast_S64_S128x4096x64_2 : S64.BroadcastsInDim S128x4096x64 (![2] : Fin 1 → Fin S128x4096x64.rank)
  bcast_S_S128x4096x64 : S_.BroadcastsInDim S128x4096x64 (![] : Fin 0 → Fin S128x4096x64.rank)
  gather_S128x4096x64_S64x1_S128x4096x64_01_2_n_n_2_1_12840961_wf : GatherDims.WF S128x4096x64 S64x1 S128x4096x64 [0, 1] [2] [] [2] [] 1 ![128, 4096, 1]

variable [Facts₀]

def gather_S128x4096x64_S64x1_S128x4096x64_01_2_n_n_2_1_12840961 : GatherDims S128x4096x64 S64x1 S128x4096x64 where
  offsetDims := [0, 1]
  collapsedSliceDims := [2]
  operandBatchingDims := []
  startIndicesBatchingDims := []
  startIndexMap := [2]
  indexVectorDim := 1
  sliceSizes := ![128, 4096, 1]
  wf := gather_S128x4096x64_S64x1_S128x4096x64_01_2_n_n_2_1_12840961_wf

class Facts : Prop extends Facts₀ where

variable [Facts]
-- ==== Proof.ZigZag.lean ====
/-
  The zig-zag reorder, stated once for both programs.

  An input `x : [128, 4096, 8, 8]` holds, for each of 128 × 4096 blocks, an 8 × 8 tile. Reading the tile row-major gives 64
  numbers; the result `[128, 4096, 64]` lists them in the fixed zig-zag order `perm`: entry `j` of a block's result is the
  tile's entry number `perm j`, that is row `perm j / 8`, column `perm j % 8`.

  Also here: the one law of the extended reals the kernel's side needs. The kernel multiplies by the 0/1 matrix with a
  single one in each row (at column `perm j`); a row's product with a vector `w` is `∑ k, [k = p] · w k = w p`. This holds
  for every extended real `w k`, infinite ones included, since `0 · w = 0` there and a sum of zeros and one term is that term.
-/
import Idealize.ShloMosaic.PureOps.Ideal
import Idealize.ShloMosaic.Lib.ValueIdx

noncomputable section

namespace Cert.ZigZag

open Idealize.ShloMosaic Idealize.ShloMosaic.ValueIdx

/-- The zig-zag order as a function of naturals: position `j` of the result reads the tile's row-major entry `permNat j`. -/
def permNat : Nat → Nat
  | 0 => 0 | 1 => 1 | 2 => 5 | 3 => 6 | 4 => 14 | 5 => 15 | 6 => 27 | 7 => 28
  | 8 => 2 | 9 => 4 | 10 => 7 | 11 => 13 | 12 => 16 | 13 => 26 | 14 => 29 | 15 => 42
  | 16 => 3 | 17 => 8 | 18 => 12 | 19 => 17 | 20 => 25 | 21 => 30 | 22 => 41 | 23 => 43
  | 24 => 9 | 25 => 11 | 26 => 18 | 27 => 24 | 28 => 31 | 29 => 40 | 30 => 44 | 31 => 53
  | 32 => 10 | 33 => 19 | 34 => 23 | 35 => 32 | 36 => 39 | 37 => 45 | 38 => 52 | 39 => 54
  | 40 => 20 | 41 => 22 | 42 => 33 | 43 => 38 | 44 => 46 | 45 => 51 | 46 => 55 | 47 => 60
  | 48 => 21 | 49 => 34 | 50 => 37 | 51 => 47 | 52 => 50 | 53 => 56 | 54 => 59 | 55 => 61
  | 56 => 35 | 57 => 36 | 58 => 48 | 59 => 49 | 60 => 57 | 61 => 58 | 62 => 62 | 63 => 63
  | _ => 0

theorem permNat_lt : ∀ j : Fin 64, permNat j.val < 64 := by decide

/-- The zig-zag order on `Fin 64`. -/
def perm (j : Fin 64) : Fin 64 := ⟨permNat j.val, permNat_lt j⟩

/-- A row-major tile entry's row, -/
def hi (k : Fin 64) : Fin 8 := ⟨k.val / 8, by omega⟩
/-- and its column. -/
def lo (k : Fin 64) : Fin 8 := ⟨k.val % 8, by omega⟩

theorem hi_lo (k : Fin 64) : 8 * (hi k).val + (lo k).val = k.val := by
  show 8 * (k.val / 8) + k.val % 8 = k.val
  omega

/-- The result as one function of the input array: block `(b, c)`'s entry `j` is the tile's entry `perm j`. -/
def G (x : (⟨4, ![128, 4096, 8, 8]⟩ : Shape).Idx → EReal) : (⟨3, ![128, 4096, 64]⟩ : Shape).Idx → EReal :=
  fun i => x (ix4 (n0 := 128) (n1 := 4096) (n2 := 8) (n3 := 8) (i 0) (i 1) (hi (perm (i 2))) (lo (perm (i 2))))

theorem G_apply (x : (⟨4, ![128, 4096, 8, 8]⟩ : Shape).Idx → EReal) (b : Fin 128) (c : Fin 4096) (j : Fin 64) :
    G x (ix3 b c j) = x (ix4 b c (hi (perm j)) (lo (perm j))) := rfl

/-- A row of the permutation matrix times a vector picks one entry. -/
theorem sum_ite_mul (p : Fin 64) (w : Fin 64 → EReal) :
    (∑ k : Fin 64, (if k = p then (1 : EReal) else 0) * w k) = w p := by
  rw [Finset.sum_eq_single p]
  · rw [if_pos rfl, one_mul]
  · intro k _ hk
    rw [if_neg hk, zero_mul]
  · intro h
    exact absurd (Finset.mem_univ p) h

end Cert.ZigZag

end
-- ==== Proof.KernelArrays.lean ====
/-
  The two arrays the region reads, as it finds them, at an index.

  Before the region the program writes the 64 × 64 matrix of zeros and ones, and re-lays the input `x : [128, 4096, 8, 8]`
  as `[128, 8, 32, 8, 128]`: a transpose to `[128, 8, 8, 4096]` (tile row and column ahead of the block number), a split of
  the block number `c = 128·sb + l` into `(sb, l)`, and a swap of the tile column with `sb`. So the re-laid array at
  `(b, a, sb, d, l)` is `x (b, 128·sb + l, a, d)`.
-/
import proofs.«175661_g481036337610_cont_8to1c4_34_16_alg».proof.Proof.Gen.KernelIdeal.Frame
import proofs.«175661_g481036337610_cont_8to1c4_34_16_alg».proof.Proof.ZigZag
import Idealize.ShloMosaic.Lib.ValueIdx
import Idealize.ShloMosaic.Lib.Pipeline.Value
import Idealize.ShloMosaic.Lib.StableHlo.Run
import Idealize.ShloMosaic.PureOps.Ideal.Laws

noncomputable section

namespace Cert.KernelIdeal.KArrays

open Idealize.ShloMosaic Idealize.ShloMosaic.TcCoe Idealize.SL.Sem Idealize.ShloMosaic.ValueIdx
open Cert.KernelIdeal Cert.KernelIdeal.Gen Cert.ZigZag

variable (m : (ℓ : Loc nD τ sig) → Buf (Elt Ideal) ℓ)

/-- The matrix operand as the region finds it: the printed table read row-major. -/
theorem V_cst_eq (c : Dev nD) :
    (V m c main_cst : S64x64.Idx → EReal) = fun i => Ideal.ofBits .f32 (lit0 (S64x64.rowMajor i)) := by
  show StableHlo.after (List.flatten [hostOps0]) (fun b => m (c, b)) (Proc.devRef .tc main_cst) = _
  simp only [hostOps0, List.flatten_cons, List.flatten_nil, List.append_nil]
  after_results
  rfl

/-- The re-laid input as the region finds it: the three layout operations applied to the input array. -/
theorem V_v2_eq (c : Dev nD) :
    (V m c main_v2 : S128x8x32x8x128.Idx → EReal)
      = transpose S128x8x32x8x128 [0, 1, 3, 2, 4]
          (shapeCast S128x8x8x32x128
            (transpose S128x8x8x4096 [0, 2, 3, 1] (m ((c : Thread nD τ).loc main_arg0)) Facts₀.transposes_S128x4096x8x8_S128x8x8x4096_0_2_3_1)
            Facts₀.shapeCasts_S128x8x8x4096_S128x8x8x32x128)
          Facts₀.transposes_S128x8x8x32x128_S128x8x32x8x128_0_1_3_2_4 := by
  show StableHlo.after (List.flatten [hostOps0]) (fun b => m (c, b)) (Proc.devRef .tc main_v2) = _
  simp only [hostOps0, List.flatten_cons, List.flatten_nil, List.append_nil]
  after_results
  rfl

/-- A block number from its two digits in base 128. -/
def blockNo (sb : Fin 32) (l : Fin 128) : Fin 4096 := ⟨128 * sb.val + l.val, by omega⟩

/-- The re-laid input at `(b, a, sb, d, l)` is the input at block `(b, 128·sb + l)`, tile entry `(a, d)`. -/
theorem V_v2_apply (c : Dev nD) (b : Fin 128) (a : Fin 8) (sb : Fin 32) (d : Fin 8) (l : Fin 128) :
    (V m c main_v2 : S128x8x32x8x128.Idx → EReal) (ix5 b a sb d l)
      = (m ((c : Thread nD τ).loc main_arg0) : S128x4096x8x8.Idx → EReal) (ix4 b (blockNo sb l) a d) := by
  rw [V_v2_eq]
  refine (transpose_apply [0, 1, 3, 2, 4] _ _ (ix5 b a sb d l) (ix5 b a d sb l) ?_).trans ?_
  · intro r
    match r with
    | ⟨0, _⟩ => rfl
    | ⟨1, _⟩ => rfl
    | ⟨2, _⟩ => rfl
    | ⟨3, _⟩ => rfl
    | ⟨4, _⟩ => rfl
  refine (shapeCast_apply _ _ (ix5 b a d sb l) (ix4 b a d (blockNo sb l)) ?_).trans ?_
  · rw [Shape.rowMajor_val_four, Shape.rowMajor_val_five]
    show ((b.val * 8 + a.val) * 8 + d.val) * 4096 + (128 * sb.val + l.val)
      = (((b.val * 8 + a.val) * 8 + d.val) * 32 + sb.val) * 128 + l.val
    omega
  refine transpose_apply [0, 2, 3, 1] _ _ (ix4 b a d (blockNo sb l)) (ix4 b (blockNo sb l) a d) ?_
  intro r
  match r with
  | ⟨0, _⟩ => rfl
  | ⟨1, _⟩ => rfl
  | ⟨2, _⟩ => rfl
  | ⟨3, _⟩ => rfl

end Cert.KernelIdeal.KArrays

end
-- ==== Proof.PayloadLit.lean ====
/-
  The printed 64 × 64 constant, read as extended reals: it is the permutation matrix of the zig-zag order. Row `j` has a
  single one, at column `perm j`, and zeros elsewhere. The table lists the 4096 words row-major, so entry `(j, k)` is
  word number `64 · j + k`; the words are compared with the order one by one, and the two words that occur, `0x3F800000`
  and `0`, are the extended reals one and zero.
-/
import proofs.«175661_g481036337610_cont_8to1c4_34_16_alg».proof.KernelIdeal
import proofs.«175661_g481036337610_cont_8to1c4_34_16_alg».proof.Proof.ZigZag
import Idealize.ShloMosaic.PureOps.Ideal.Laws
import Idealize.ShloMosaic.Lib.IdealHost
import Idealize.ShloMosaic.Lib.ValueIdx

noncomputable section

namespace Cert.KernelIdeal.Payload

open Idealize.ShloMosaic Idealize.ShloMosaic.ValueIdx Cert.KernelIdeal Cert.ZigZag

/-- Word number `64 · j + k` of the table is the pattern of one when `k = perm j` and the zero word otherwise. -/
theorem lit_word : ∀ j k : Fin 64,
    lit0 ⟨64 * j.val + k.val, by omega⟩ = if k = perm j then 0x3F800000#32 else 0x00000000#32 := by
  decide +kernel

/-- The row-major position of entry `(j, k)` of a 64 × 64 array. -/
theorem rowMajor_ix2 (j k : Fin 64) (h : 64 * j.val + k.val < 4096) :
    S64x64.rowMajor (ix2 j k) = (⟨64 * j.val + k.val, h⟩ : Fin 4096) := by
  refine Fin.ext ?_
  rw [Shape.rowMajor_val_two]
  show j.val * 64 + k.val = 64 * j.val + k.val
  omega

/-- The printed 64 × 64 constant is the permutation matrix: row j has its one at column perm j. -/
theorem lit_eq (j k : Fin 64) :
    Ideal.ofBits .f32 (lit0 (S64x64.rowMajor (ix2 j k))) = if k = perm j then (1 : EReal) else 0 := by
  rw [rowMajor_ix2 j k (by omega), lit_word]
  by_cases h : k = perm j
  · rw [if_pos h, if_pos h]
    exact Ideal.ofBits_one_f32
  · rw [if_neg h, if_neg h]
    exact Ideal.ofBits_zero_f32

end Cert.KernelIdeal.Payload

end
-- ==== Proof.Payload.lean ====
/-
  The body's arithmetic, read at an index, at the ideal values.

  The body takes the loaded block `v0 : [4, 8, 32, 8, 128]` — entry `(b, a, sb, d, l)` is tile entry `(a, d)` of block
  `(b, sb, l)` — and brings the two tile axes together: transposed to `[4, 32, 8, 8, 128]` and cast to `[128, 64, 128]`, it is
  `w (32·b + sb, 8·a + d, l) = v0 (b, a, sb, d, l)`. The 64 × 64 matrix `v4`, cast to `[1, 64, 64]` and broadcast to
  `[128, 64, 64]`, multiplies each `[64, 128]` slab from the left: `out (m, r, l) = ∑ k, v4 (r, k) · w (m, k, l)`. With `v4`
  the matrix whose row `r` has its single one at column `perm r`, the sum is `w (m, perm r, l)`. The result is cast back to
  `[4, 32, 8, 8, 128]` and transposed back, so the stored entry `(b, j1, sb, j2, l)` is
  `v0 (b, hi (perm (8·j1 + j2)), sb, lo (perm (8·j1 + j2)), l)`.

  The lemmas below read each layout operation at an index written by its coordinates, then the product's operand
  indices axis by axis, then the product, and last the whole body.
-/
import proofs.«175661_g481036337610_cont_8to1c4_34_16_alg».proof.Proof.Gen.KernelIdeal.Skeleton
import proofs.«175661_g481036337610_cont_8to1c4_34_16_alg».proof.Proof.ZigZag
import proofs.«175661_g481036337610_cont_8to1c4_34_16_alg».proof.Proof.PayloadLit
import Idealize.ShloMosaic.PureOps.Ideal.Laws
import Idealize.ShloMosaic.Lib.Pipeline.Value
import Idealize.ShloMosaic.Lib.ValueIdx
import Idealize.ShloMosaic.Lib.ValueLayout

noncomputable section

namespace Cert.KernelIdeal.Payload

open Idealize.ShloMosaic Idealize.ShloMosaic.ValueIdx Cert.KernelIdeal Cert.KernelIdeal.Gen Cert.ZigZag

variable {α : Type}

/-! ## The layout operations at an index -/

/-- Axes 1 and 2 of a rank-5 array exchanged: the result at `(a, b, c, d, e)` is the operand at `(a, c, b, d, e)`. -/
theorem transpose_02134_apply {n0 n1 n2 n3 n4 : ℕ} (x : (⟨5, ![n0, n1, n2, n3, n4]⟩ : Shape).Idx → α)
    (h : (⟨5, ![n0, n1, n2, n3, n4]⟩ : Shape).Transposes [0, 2, 1, 3, 4] ⟨5, ![n0, n2, n1, n3, n4]⟩)
    (a : Fin n0) (b : Fin n2) (c : Fin n1) (d : Fin n3) (e : Fin n4) :
    transpose ⟨5, ![n0, n2, n1, n3, n4]⟩ [0, 2, 1, 3, 4] x h (ix5 a b c d e) = x (ix5 a c b d e) :=
  transpose_apply _ x h _ _ fun r => match r with
    | ⟨0, _⟩ => rfl | ⟨1, _⟩ => rfl | ⟨2, _⟩ => rfl | ⟨3, _⟩ => rfl | ⟨4, _⟩ => rfl

/-- `[4, 32, 8, 8, 128]` cast to `[128, 64, 128]`: the first two axes merge into `32·b + sb`, the next two into one axis of
    64 whose position `k` has row `hi k = k / 8` and column `lo k = k % 8`. -/
theorem cast_merge_apply (x : S4x32x8x8x128.Idx → α) (h : S4x32x8x8x128.ShapeCasts S128x64x128)
    (b : Fin 4) (sb : Fin 32) (k : Fin 64) (l : Fin 128) :
    shapeCast S128x64x128 x h (ix3 (⟨32 * b.val + sb.val, by omega⟩ : Fin 128) k l)
      = x (ix5 b sb (hi k) (lo k) l) :=
  shapeCast_apply x h _ _ (by
    rw [Shape.rowMajor_val_five, Shape.rowMajor_val_three]
    show (((b.val * 32 + sb.val) * 8 + k.val / 8) * 8 + k.val % 8) * 128 + l.val
      = ((32 * b.val + sb.val) * 64 + k.val) * 128 + l.val
    omega)

/-- `[128, 64, 128]` cast to `[4, 32, 8, 8, 128]`: the same correspondence read the other way. -/
theorem cast_split_apply (x : S128x64x128.Idx → α) (h : S128x64x128.ShapeCasts S4x32x8x8x128)
    (b : Fin 4) (sb : Fin 32) (a : Fin 8) (d : Fin 8) (l : Fin 128) :
    shapeCast S4x32x8x8x128 x h (ix5 b sb a d l)
      = x (ix3 (⟨32 * b.val + sb.val, by omega⟩ : Fin 128) (⟨8 * a.val + d.val, by omega⟩ : Fin 64) l) :=
  shapeCast_apply x h _ _ (by
    rw [Shape.rowMajor_val_five, Shape.rowMajor_val_three]
    show ((32 * b.val + sb.val) * 64 + (8 * a.val + d.val)) * 128 + l.val
      = (((b.val * 32 + sb.val) * 8 + a.val) * 8 + d.val) * 128 + l.val
    omega)

/-- One `[64, 64]` matrix broadcast over 128 slabs reads, at `(m, r, k)`, the matrix at `(r, k)`. -/
theorem broadcast_slab_apply (x : S1x64x64.Idx → α) (h : S1x64x64.Broadcasts S128x64x64)
    (m : Fin 128) (r k : Fin 64) :
    broadcastTo S128x64x64 x h (ix3 m r k) = x (ix3 (0 : Fin 1) r k) := by
  refine broadcastTo_apply x h (ix3 m r k) (ix3 (0 : Fin 1) r k) fun ax => ?_
  match ax with
  | ⟨0, _⟩ => rfl
  | ⟨1, _⟩ => rfl
  | ⟨2, _⟩ => rfl

/-! ## The product's operand indices, axis by axis -/

theorem lhs_0 (i : S128x64x128.Idx) (q : dot_S128x64x64_S128x64x128_S128x64x128_2_1_1_2_0_0.contr.Idx) :
    (dot_S128x64x64_S128x64x128_S128x64x128_2_1_1_2_0_0.lhsIdx i q 0).val = (i 0).val := by
  unfold DotDims.lhsIdx
  rw [dif_pos (show (0 : Fin S128x64x64.rank) ∈ dot_S128x64x64_S128x64x128_S128x64x128_2_1_1_2_0_0.lhsBatch by decide)]
  rfl

theorem lhs_1 (i : S128x64x128.Idx) (q : dot_S128x64x64_S128x64x128_S128x64x128_2_1_1_2_0_0.contr.Idx) :
    (dot_S128x64x64_S128x64x128_S128x64x128_2_1_1_2_0_0.lhsIdx i q 1).val = (i 1).val := by
  unfold DotDims.lhsIdx
  rw [dif_neg (show ¬(1 : Fin S128x64x64.rank) ∈ dot_S128x64x64_S128x64x128_S128x64x128_2_1_1_2_0_0.lhsBatch by decide),
    dif_pos (show (1 : Fin S128x64x64.rank) ∈ dot_S128x64x64_S128x64x128_S128x64x128_2_1_1_2_0_0.lhsNonContracting by decide)]
  rfl

theorem lhs_2 (i : S128x64x128.Idx) (q : dot_S128x64x64_S128x64x128_S128x64x128_2_1_1_2_0_0.contr.Idx) :
    (dot_S128x64x64_S128x64x128_S128x64x128_2_1_1_2_0_0.lhsIdx i q 2).val = (q ⟨0, by decide⟩).val :=
  dot_S128x64x64_S128x64x128_S128x64x128_2_1_1_2_0_0.lhsIdx_val_of_single rfl i q

theorem rhs_0 (i : S128x64x128.Idx) (q : dot_S128x64x64_S128x64x128_S128x64x128_2_1_1_2_0_0.contr.Idx) :
    (dot_S128x64x64_S128x64x128_S128x64x128_2_1_1_2_0_0.rhsIdx i q 0).val = (i 0).val := by
  unfold DotDims.rhsIdx
  rw [dif_pos (show (0 : Fin S128x64x128.rank) ∈ dot_S128x64x64_S128x64x128_S128x64x128_2_1_1_2_0_0.rhsBatch by decide)]
  rfl

theorem rhs_1 (i : S128x64x128.Idx) (q : dot_S128x64x64_S128x64x128_S128x64x128_2_1_1_2_0_0.contr.Idx) :
    (dot_S128x64x64_S128x64x128_S128x64x128_2_1_1_2_0_0.rhsIdx i q 1).val = (q ⟨0, by decide⟩).val :=
  dot_S128x64x64_S128x64x128_S128x64x128_2_1_1_2_0_0.rhsIdx_val_of_single rfl i q

theorem rhs_2 (i : S128x64x128.Idx) (q : dot_S128x64x64_S128x64x128_S128x64x128_2_1_1_2_0_0.contr.Idx) :
    (dot_S128x64x64_S128x64x128_S128x64x128_2_1_1_2_0_0.rhsIdx i q 2).val = (i 2).val := by
  unfold DotDims.rhsIdx
  rw [dif_neg (show ¬(2 : Fin S128x64x128.rank) ∈ dot_S128x64x64_S128x64x128_S128x64x128_2_1_1_2_0_0.rhsBatch by decide),
    dif_pos (show (2 : Fin S128x64x128.rank) ∈ dot_S128x64x64_S128x64x128_S128x64x128_2_1_1_2_0_0.rhsNonContracting by decide)]
  rfl

/-! ## The product at an index -/

/-- The batched product into the zero accumulator: slab `m`, row `r`, lane `l` is `∑ k, A (m, r, k) · B (m, k, l)`. -/
theorem matmul_ix3_apply (A : FVec Ideal S128x64x64 .f32) (B : FVec Ideal S128x64x128 .f32)
    (m : Fin 128) (r : Fin 64) (l : Fin 128) :
    FloatOps.matmul dot_S128x64x64_S128x64x128_S128x64x128_2_1_1_2_0_0 (some .fp32) A B (constant (F := Ideal) S128x64x128 .f32 0x00000000#32) (ix3 m r l)
      = ∑ k : Fin 64, A (ix3 m r k) * B (ix3 m k l) := by
  rw [Ideal.matmul_constant_zero_apply,
    ← Equiv.sum_comp (contrEquiv1 dot_S128x64x64_S128x64x128_S128x64x128_2_1_1_2_0_0 64 rfl rfl).symm]
  refine Finset.sum_congr rfl fun k _ => ?_
  have hk := contrEquiv1_symm_val dot_S128x64x64_S128x64x128_S128x64x128_2_1_1_2_0_0 64 rfl rfl k
  have el : dot_S128x64x64_S128x64x128_S128x64x128_2_1_1_2_0_0.lhsIdx (ix3 m r l) ((contrEquiv1 dot_S128x64x64_S128x64x128_S128x64x128_2_1_1_2_0_0 64 rfl rfl).symm k) = ix3 m r k :=
    funext fun a => Fin.ext (by
      match a with
      | ⟨0, _⟩ => exact lhs_0 _ _
      | ⟨1, _⟩ => exact lhs_1 _ _
      | ⟨2, _⟩ => exact (lhs_2 _ _).trans hk)
  have er : dot_S128x64x64_S128x64x128_S128x64x128_2_1_1_2_0_0.rhsIdx (ix3 m r l) ((contrEquiv1 dot_S128x64x64_S128x64x128_S128x64x128_2_1_1_2_0_0 64 rfl rfl).symm k) = ix3 m k l :=
    funext fun a => Fin.ext (by
      match a with
      | ⟨0, _⟩ => exact rhs_0 _ _
      | ⟨1, _⟩ => exact (rhs_1 _ _).trans hk
      | ⟨2, _⟩ => exact rhs_2 _ _)
  rw [el, er]

/-! ## The body -/

/-- The value the body stores, at an index: entry (b, j1, sb, j2, l) is the input block's entry whose tile position is perm (8·j1 + j2). -/
theorem pay_apply (x1 : Vec Ideal S4x8x32x8x128 .f32) (x0 : Vec Ideal S64x64 .f32)
    (hx0 : ∀ j k : Fin 64, x0 (ix2 j k) = if k = perm j then (1 : EReal) else 0)
    (b : Fin 4) (j1 : Fin 8) (sb : Fin 32) (j2 : Fin 8) (l : Fin 128) :
    k0_pay1 (F := Ideal) x1 x0 (ix5 b j1 sb j2 l)
      = x1 (ix5 b (hi (perm ⟨8 * j1.val + j2.val, by omega⟩)) sb (lo (perm ⟨8 * j1.val + j2.val, by omega⟩)) l) := by
  unfold k0_pay1
  -- the two outer layout operations
  refine (transpose_02134_apply _ _ b j1 sb j2 l).trans ?_
  refine (cast_split_apply _ _ b sb j1 j2 l).trans ?_
  -- the product, and its left factor: the broadcast matrix
  refine (matmul_ix3_apply _ _ _ _ l).trans ?_
  have hA : ∀ k : Fin 64,
      broadcastTo S128x64x64
          (shapeCast S1x64x64 (shapeCast S1x64x64 x0 shapeCasts_S64x64_S1x64x64) shapeCasts_S1x64x64_S1x64x64)
          broadcasts_S1x64x64_S128x64x64
          (ix3 (⟨32 * b.val + sb.val, by omega⟩ : Fin 128) (⟨8 * j1.val + j2.val, by omega⟩ : Fin 64) k)
        = if k = perm ⟨8 * j1.val + j2.val, by omega⟩ then (1 : EReal) else 0 := fun k => by
    refine (broadcast_slab_apply _ _ _ _ k).trans ?_
    rw [shapeCast_self]
    refine (shapeCast_ab_1ab_apply _ _ (0 : Fin 1) _ k).trans ?_
    exact hx0 _ k
  refine (Finset.sum_congr rfl fun k _ => congrArg (· * _) (hA k)).trans ?_
  refine (sum_ite_mul (perm ⟨8 * j1.val + j2.val, by omega⟩) _).trans ?_
  -- the right factor at the chosen position: the two inner layout operations
  refine (cast_merge_apply _ _ b sb (perm ⟨8 * j1.val + j2.val, by omega⟩) l).trans ?_
  refine (transpose_02134_apply _ _ b sb _ _ l).trans ?_
  exact congrFun (shapeCast_self x1 _) _

end Cert.KernelIdeal.Payload

end
-- ==== Proof.KernelBlocks.lean ====
/-
  From the body's stored value to the region's whole output array.

  The region runs 32 points; point `t` reads batches `4t … 4t + 3` of the re-laid input `[128, 8, 32, 8, 128]` (whole on
  the other four axes) and the whole 64 × 64 matrix, and writes the same batches of the output array. Within a block the body
  stores, at `(b, j1, sb, j2, l)`, the block's entry at tile position `perm (8·j1 + j2)` (the matrix product with the 0/1
  matrix, read at an index). The batch is untouched by the permutation, so each block written is the block of ONE function `R`
  of the whole input array; the 32 blocks tile the array (index `i` lies in the block of point `i₀ / 4`), so after the region
  the output array is `R` of the input array.
-/
import proofs.«175661_g481036337610_cont_8to1c4_34_16_alg».proof.Proof.Gen.KernelIdeal.Frame
import proofs.«175661_g481036337610_cont_8to1c4_34_16_alg».proof.Proof.ZigZag
import proofs.«175661_g481036337610_cont_8to1c4_34_16_alg».proof.Proof.KernelArrays
import proofs.«175661_g481036337610_cont_8to1c4_34_16_alg».proof.Proof.Payload
import Idealize.ShloMosaic.Lib.ValueIdx
import Idealize.ShloMosaic.Lib.Pipeline.Value
import Idealize.ShloMosaic.Lib.StableHlo.Run
import Idealize.ShloMosaic.PureOps.Ideal.Laws

noncomputable section

namespace Cert.KernelIdeal.KBlocks

open Idealize.ShloMosaic Idealize.ShloMosaic.TcCoe Idealize.SL.Sem Idealize.ShloMosaic.ValueIdx
open Cert.KernelIdeal Cert.KernelIdeal.Gen Cert.ZigZag

variable (m : (ℓ : Loc nD τ sig) → Buf (Elt Ideal) ℓ)

open Cert.KernelIdeal.KArrays

/-- A tile position from its row and column. -/
def tile (j1 j2 : Fin 8) : Fin 64 := ⟨8 * j1.val + j2.val, by omega⟩

/-- What the region leaves in its output array, as one function of its input array `A` (both `[128, 8, 32, 8, 128]`):
    entry `(b, j1, sb, j2, l)` is `A`'s entry whose tile position is `perm (8·j1 + j2)`. -/
def R (A : S128x8x32x8x128.Idx → EReal) : S128x8x32x8x128.Idx → EReal := fun i =>
  A (ix5 (n0 := 128) (n1 := 8) (n2 := 32) (n3 := 8) (n4 := 128) (i 0) (hi (perm (tile (i 1) (i 3)))) (i 2) (lo (perm (tile (i 1) (i 3)))) (i 4))

theorem hz5 : (![0, 0, 0, 0, 0] : Fin 5 → Nat) = fun _ => 0 := funext fun a => by fin_cases a <;> rfl
theorem hz2 : (![0, 0] : Fin 2 → Nat) = fun _ => 0 := funext fun a => by fin_cases a <;> rfl

/-- The printed index maps over the grid: the matrix's one block is block (0, 0) at every point; point `t` reads and
    writes the `t`-th group of four batches, whole on the other axes. -/
theorem idx_facts : ∀ t : Fin cfg0.N,
    win0_0.index t (0 : Fin 2) = 0 ∧ win0_0.index t (1 : Fin 2) = 0
    ∧ win0_1.index t (0 : Fin 5) = t.val ∧ win0_1.index t (1 : Fin 5) = 0 ∧ win0_1.index t (2 : Fin 5) = 0
    ∧ win0_1.index t (3 : Fin 5) = 0 ∧ win0_1.index t (4 : Fin 5) = 0
    ∧ win0_2.index t (0 : Fin 5) = t.val ∧ win0_2.index t (1 : Fin 5) = 0 ∧ win0_2.index t (2 : Fin 5) = 0
    ∧ win0_2.index t (3 : Fin 5) = 0 ∧ win0_2.index t (4 : Fin 5) = 0 :=
  (by decide +kernel : ∀ t : Fin grid0.N, _)

/-- The matrix's block at any point is the permutation matrix. -/
theorem mat_blk (c : Dev nD) (t : Fin cfg0.N) (j k : Fin 64) :
    (iblk m c 0 t : S64x64.Idx → EReal) (ix2 j k) = if k = perm j then (1 : EReal) else 0 := by
  obtain ⟨e0, e1, -⟩ := idx_facts t
  show (V m c main_cst : S64x64.Idx → EReal) (((cfg0.win 0).blk t).view.emb (ix2 j k)) = _
  have he : ((cfg0.win 0).blk t).view.emb (ix2 j k) = ix2 j k := by
    funext a; apply Fin.ext
    match a with
    | ⟨0, _⟩ => show win0_0.index t (0 : Fin 2) * 64 + 1 * j.val = j.val; omega
    | ⟨1, _⟩ => show win0_0.index t (1 : Fin 2) * 64 + 1 * k.val = k.val; omega
  rw [he, V_cst_eq]
  exact Cert.KernelIdeal.Payload.lit_eq j k

/-- The stored value at an index of the block, over any input block and the permutation matrix. -/
theorem stored_apply (x0 : Vec Ideal S64x64 .f32) (x1 : Vec Ideal S4x8x32x8x128 .f32)
    (hx0 : ∀ j k : Fin 64, x0 (ix2 j k) = if k = perm j then (1 : EReal) else 0) (y : S4x8x32x8x128.Idx) :
    k0_pay1 (F := Ideal) x1 x0 y
      = x1 (ix5 (n0 := 4) (n1 := 8) (n2 := 32) (n3 := 8) (n4 := 128) (y 0) (hi (perm (tile (y 1) (y 3)))) (y 2) (lo (perm (tile (y 1) (y 3)))) (y 4)) := by
  obtain ⟨b, j1, sb, j2, l, rfl⟩ : ∃ (b : Fin 4) (j1 : Fin 8) (sb : Fin 32) (j2 : Fin 8) (l : Fin 128), y = ix5 b j1 sb j2 l :=
    ⟨y 0, y 1, y 2, y 3, y 4, eq_ix5 y⟩
  exact Cert.KernelIdeal.Payload.pay_apply x1 x0 hx0 b j1 sb j2 l

/-- Batch `4·t + b` of the array, for `b` inside point `t`'s block. -/
def batchNo (t : Fin cfg0.N) (b : Fin 4) : Fin 128 := ⟨4 * t.val + b.val, by have : t.val < 32 := Nat.lt_of_lt_of_eq t.isLt N_0; omega⟩

/-- Where an index of point `t`'s input block sits in the input array, -/
theorem emb_in (t : Fin cfg0.N) (y : S4x8x32x8x128.Idx) :
    ((cfg0.win 1).blk t).view.emb y = ix5 (batchNo t (y 0)) (y 1) (y 2) (y 3) (y 4) := by
  obtain ⟨-, -, e0, e1, e2, e3, e4, -⟩ := idx_facts t
  funext a; apply Fin.ext
  match a with
  | ⟨0, _⟩ => show win0_1.index t (0 : Fin 5) * 4 + 1 * (y 0).val = 4 * t.val + (y 0).val; omega
  | ⟨1, _⟩ => show win0_1.index t (1 : Fin 5) * 8 + 1 * (y 1).val = (y 1).val; omega
  | ⟨2, _⟩ => show win0_1.index t (2 : Fin 5) * 32 + 1 * (y 2).val = (y 2).val; omega
  | ⟨3, _⟩ => show win0_1.index t (3 : Fin 5) * 8 + 1 * (y 3).val = (y 3).val; omega
  | ⟨4, _⟩ => show win0_1.index t (4 : Fin 5) * 128 + 1 * (y 4).val = (y 4).val; omega

/-- and of its output block in the output array: the same place. -/
theorem emb_out (t : Fin cfg0.N) (y : S4x8x32x8x128.Idx) :
    ((cfg0.win 2).blk t).view.emb y = ix5 (batchNo t (y 0)) (y 1) (y 2) (y 3) (y 4) := by
  obtain ⟨-, -, -, -, -, -, -, e0, e1, e2, e3, e4⟩ := idx_facts t
  funext a; apply Fin.ext
  match a with
  | ⟨0, _⟩ => show win0_2.index t (0 : Fin 5) * 4 + 1 * (y 0).val = 4 * t.val + (y 0).val; omega
  | ⟨1, _⟩ => show win0_2.index t (1 : Fin 5) * 8 + 1 * (y 1).val = (y 1).val; omega
  | ⟨2, _⟩ => show win0_2.index t (2 : Fin 5) * 32 + 1 * (y 2).val = (y 2).val; omega
  | ⟨3, _⟩ => show win0_2.index t (3 : Fin 5) * 8 + 1 * (y 3).val = (y 3).val; omega
  | ⟨4, _⟩ => show win0_2.index t (4 : Fin 5) * 128 + 1 * (y 4).val = (y 4).val; omega

/-- WHAT POINT `t` WRITES BACK is block `t` of `R` of the re-laid input. -/
theorem flushed_eq (c : Dev nD) (t : Fin cfg0.N) :
    (dats m 0 c).flushed 2 t = ((cfg0.win 2).blk t).view.read (Elt Ideal) (R (V m c main_v2)) := by
  show (cfg0.win 2).cut (grid0.coords t) ((dats m 0 c).after 2 t) = _
  rw [after0_2]
  unfold out0_2
  rw [View.canon_unit_zero hz5]
  simp only [View.ld_unit_zero (S := S4x8x32x8x128) hz5, View.ld_unit_zero (S := S64x64) hz2]
  funext y
  show k0_pay1 (F := Ideal) (iblk m c 1 t) (iblk m c 0 t) y = R (V m c main_v2) (((cfg0.win 2).blk t).view.emb y)
  refine (stored_apply (iblk m c 0 t) (iblk m c 1 t) (mat_blk m c t) y).trans ?_
  show (V m c main_v2 : S128x8x32x8x128.Idx → EReal) (((cfg0.win 1).blk t).view.emb _) = _
  rw [emb_in, emb_out]
  rfl

/-- Every index of the output array is in the block of the point its batch belongs to. -/
theorem covered (i : S128x8x32x8x128.Idx) :
    ∃ t : Fin cfg0.N, (cfg0.win 2).flush t = true ∧ i ∈ ((cfg0.win 2).blk t).view.set := by
  have h0 : (i 0).val < 128 := (i 0).isLt
  have h1 : (i 1).val < 8 := (i 1).isLt
  have h2 : (i 2).val < 32 := (i 2).isLt
  have h3 : (i 3).val < 8 := (i 3).isLt
  have h4 : (i 4).val < 128 := (i 4).isLt
  let t : Fin cfg0.N := ⟨(i 0).val / 4, Nat.lt_of_lt_of_eq (by omega : (i 0).val / 4 < 32) N_0.symm⟩
  obtain ⟨-, -, -, -, -, -, -, e0, e1, e2, e3, e4⟩ := idx_facts t
  have ht : t.val = (i 0).val / 4 := rfl
  refine ⟨t, flush0_2 t, ?_⟩
  show i ∈ ((View.whole main_v3).slice (win0_2.rect t)).set
  rw [View.set_slice_whole, Rect.mem_set_unit]
  intro a
  match a with
  | ⟨0, _⟩ => show win0_2.index t (0 : Fin 5) * 4 ≤ (i 0).val ∧ (i 0).val < win0_2.index t (0 : Fin 5) * 4 + 4; omega
  | ⟨1, _⟩ => show win0_2.index t (1 : Fin 5) * 8 ≤ (i 1).val ∧ (i 1).val < win0_2.index t (1 : Fin 5) * 8 + 8; omega
  | ⟨2, _⟩ => show win0_2.index t (2 : Fin 5) * 32 ≤ (i 2).val ∧ (i 2).val < win0_2.index t (2 : Fin 5) * 32 + 32; omega
  | ⟨3, _⟩ => show win0_2.index t (3 : Fin 5) * 8 ≤ (i 3).val ∧ (i 3).val < win0_2.index t (3 : Fin 5) * 8 + 8; omega
  | ⟨4, _⟩ => show win0_2.index t (4 : Fin 5) * 128 ≤ (i 4).val ∧ (i 4).val < win0_2.index t (4 : Fin 5) * 128 + 128; omega

/-- THE OUTPUT ARRAY after the region: `R` of the re-laid input. -/
theorem final (c : Dev nD) : (dats m 0 c).arrAt 2 cfg0.N = R (V m c main_v2) :=
  (dats m 0 c).arrAt_eq_of_cover 2 (R (V m c main_v2)) (fun t _ => flushed_eq m c t) covered

end Cert.KernelIdeal.KBlocks

end
-- ==== Proof.KernelValue.lean ====
/-
  The kernel program's result as a function of its input.

  After the region two layout lines follow: the output array `[128, 8, 32, 8, 128]` is transposed to `[128, 32, 128, 8, 8]`
  and flattened to `[128, 4096, 64]`. Reading the result at block `(b, cc)`, position `j`, with `cc = 128·sb + l` and
  `j = 8·j1 + j2`: the flattening and the transpose lead to the output array at `(b, j1, sb, j2, l)`; the region left there the
  re-laid input at tile position `perm j`; and the re-laid input at `(b, a, sb, d, l)` is the input at block `(b, cc)`, tile
  entry `(a, d)`. So the result is the input's tile entry `perm j` of block `(b, cc)`: the zig-zag reorder `G`.
-/
import proofs.«175661_g481036337610_cont_8to1c4_34_16_alg».proof.Proof.Gen.KernelIdeal.Frame
import proofs.«175661_g481036337610_cont_8to1c4_34_16_alg».proof.Proof.ZigZag
import proofs.«175661_g481036337610_cont_8to1c4_34_16_alg».proof.Proof.KernelBlocks
import Idealize.ShloMosaic.Lib.ValueIdx
import Idealize.ShloMosaic.Lib.Pipeline.Value
import Idealize.ShloMosaic.Lib.StableHlo.Run
import Idealize.ShloMosaic.PureOps.Ideal.Laws

noncomputable section

namespace Cert.KernelIdeal.KValue

open Idealize.ShloMosaic Idealize.ShloMosaic.TcCoe Idealize.SL.Sem Idealize.ShloMosaic.ValueIdx
open Cert.KernelIdeal Cert.KernelIdeal.Gen Cert.ZigZag

variable (m : (ℓ : Loc nD τ sig) → Buf (Elt Ideal) ℓ)

open Cert.KernelIdeal.KArrays Cert.KernelIdeal.KBlocks

variable (ρ : Dev nD → PrngReg)

/-- The program's result after the lines that follow the region: the region's output array transposed to
    `[128, 32, 128, 8, 8]` (batch, the block number's two digits, the tile position's two digits) and flattened to
    `[128, 4096, 64]`. -/
theorem tail_eq (c : Dev nD) :
    (Pipeline.afterTail₀ cfgs (dats m) 0 (V0 m) [hostOps1] c main_v5 : S128x4096x64.Idx → EReal)
      = shapeCast S128x4096x64
          (transpose S128x32x128x8x8 [0, 2, 4, 1, 3] ((dats m 0 c).arrAt 2 cfg0.N : S128x8x32x8x128.Idx → EReal)
            Facts₀.transposes_S128x8x32x8x128_S128x32x128x8x8_0_2_4_1_3)
          Facts₀.shapeCasts_S128x32x128x8x8_S128x4096x64 := by
  have hw : (Pipeline.withArrays (cfgs 0).spec c (V0 m c) (fun w => (dats m 0 c).arrAt w (cfgs 0).N) (Proc.devRef .tc main_v3)
        : S128x8x32x8x128.Idx → EReal) = (dats m 0 c).arrAt 2 cfg0.N :=
    Pipeline.withArrays_arr spec0 launch0.win.arr_inj c _ _ 2
  unfold Pipeline.afterTail₀
  show StableHlo.after hostOps1 _ (Proc.devRef .tc main_v5) = _
  after_results
  rw [hw]
  rfl

/-- The result at block `(b, cc)`, position `j`: with `cc = 128·sb + l` and `j = 8·j1 + j2` it is the region's output at
    `(b, j1, sb, j2, l)`, which is the re-laid input at the tile position `perm j`, which is the input's tile entry
    `perm j` of block `(b, cc)`. -/
theorem result_apply (c : Dev nD) (b : Fin 128) (cc : Fin 4096) (j : Fin 64) :
    (Pipeline.afterTail₀ cfgs (dats m) 0 (V0 m) [hostOps1] c main_v5 : S128x4096x64.Idx → EReal) (ix3 b cc j)
      = (m ((c : Thread nD τ).loc main_arg0) : S128x4096x8x8.Idx → EReal) (ix4 b cc (hi (perm j)) (lo (perm j))) := by
  have hcc : cc.val < 4096 := cc.isLt
  have hj : j.val < 64 := j.isLt
  let sb : Fin 32 := ⟨cc.val / 128, by omega⟩
  let l : Fin 128 := ⟨cc.val % 128, by omega⟩
  let j1 : Fin 8 := ⟨j.val / 8, by omega⟩
  let j2 : Fin 8 := ⟨j.val % 8, by omega⟩
  have hblock : blockNo sb l = cc := Fin.ext (by show 128 * (cc.val / 128) + cc.val % 128 = cc.val; omega)
  have htile : tile j1 j2 = j := Fin.ext (by show 8 * (j.val / 8) + j.val % 8 = j.val; omega)
  rw [tail_eq, final]
  refine (shapeCast_apply _ _ (ix3 b cc j) (ix5 b sb l j1 j2) ?_).trans ?_
  · rw [Shape.rowMajor_val_five, Shape.rowMajor_val_three]
    show (((b.val * 32 + cc.val / 128) * 128 + cc.val % 128) * 8 + j.val / 8) * 8 + j.val % 8
      = (b.val * 4096 + cc.val) * 64 + j.val
    omega
  refine (transpose_apply [0, 2, 4, 1, 3] _ _ (ix5 b sb l j1 j2) (ix5 b j1 sb j2 l) ?_).trans ?_
  · intro r
    match r with
    | ⟨0, _⟩ => rfl
    | ⟨1, _⟩ => rfl
    | ⟨2, _⟩ => rfl
    | ⟨3, _⟩ => rfl
    | ⟨4, _⟩ => rfl
  show (V m c main_v2 : S128x8x32x8x128.Idx → EReal) (ix5 b (hi (perm (tile j1 j2))) sb (lo (perm (tile j1 j2))) l) = _
  rw [V_v2_apply, hblock, htile]

/-- The program's result is the zig-zag reorder of its input. -/
theorem result_eq (c : Dev nD) :
    (Pipeline.afterTail₀ cfgs (dats m) 0 (V0 m) [hostOps1] c main_v5 : S128x4096x64.Idx → EReal)
      = G (m ((c : Thread nD τ).loc main_arg0)) := by
  funext i
  obtain ⟨b, cc, j, rfl⟩ : ∃ (b : Fin 128) (cc : Fin 4096) (j : Fin 64), i = ix3 b cc j := ⟨i 0, i 1, i 2, eq_ix3 i⟩
  rw [result_apply, G_apply]

/-- The run, read: every weakly fair execution ends with the result array at the zig-zag reorder of the input array and
    the input array unchanged. -/
theorem run : θ_run (defs (F := Ideal)) (onTc (τ := τ) (main (F := Ideal))) ⟨m, fun _ => 0, ρ⟩ (fun r => ∀ c : Dev nD,
      r.2.mem ((c.tc : Thread nD τ).loc main_v5) = G (m ((c.tc : Thread nD τ).loc main_arg0))
      ∧ r.2.mem ((c.tc : Thread nD τ).loc main_arg0) = m ((c.tc : Thread nD τ).loc main_arg0)) :=
  (θ_run defs _ _).mono (fun r h c =>
    ⟨((h c).2 main_v5 (Pipeline.mem_restRefs_of main_v5 (by decide) (by decide))).trans (result_eq m c),
     ((h c).2 main_arg0 (Pipeline.mem_restRefs_of main_arg0 (by decide) (by decide))).trans (W_main_arg0 m (dats m) c)⟩)
    (run_main m ρ)

end Cert.KernelIdeal.KValue

end
-- ==== Proof.RefRun.lean ====
/-
  The reference program's run.

  The reference is a host program of StableHLO operations only. Its @main writes the constant index table (the
  zig-zag order, 64 words), reshapes the argument `[128, 4096, 8, 8]` to `[128, 4096, 64]`, and calls `_take` on the
  two; `_take` normalises the indices (`where(idx < 0, idx + 64, idx)`, the `where` a call of `_where`, one select),
  computes the bounds mask `0 ≤ idx ≤ 63` (two compares, an `and`, a reduce by `and` over an axis of extent one, a
  broadcast), gathers along the last axis and selects between the gathered values and a constant by the mask.

  A call means its callee's body on the operands, so @main is one straight line of twenty-five operations: its own
  two, then `_take`'s twenty-three with `_where`'s one in its place, each over the buffers of the call's record
  (`main_call0`, and `main_call0.call0` for the nested call). Here: that list (`ops`), the equation of @main with the
  list's sequence (`main_eq`), the side conditions of the library's run theorem for such a line (no scoped buffer, no
  scoped semaphore, every operation inside the TensorCore's buffers), and the run itself (`run_main`): every weakly
  fair execution terminates, and every final memory has each buffer at the fold of `ops` over the launch contents.
  All of it for any float values `F`.
-/
import proofs.«175661_g481036337610_cont_8to1c4_34_16_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem
  Idealize.ShloMosaic.StableHlo

variable {F : FTy → Type} [FloatOps F]

/-- @main's operations in order, the calls unfolded: the index table and the reshape; then `_take`'s lines over
    `main_call0`'s buffers — the scalar zero and its broadcast, the test `idx < 0`, the scalar 64 and its broadcast,
    `idx + 64`, `_where`'s select into `main_call0.call0`'s buffer, the indices as a column, the bounds 63 and 0 and their
    broadcasts, the two compares and their `and`, the reduce of that column along its axis of extent one, the gather,
    the mask's broadcast, the constant and its broadcast, the closing select (into @main's result buffer). -/
abbrev ops : List (HloOp τ sig (Elt F)) :=
  [ nullary main_c (fun i => lit0 (S64.rowMajor i)),
    reshape main_arg0 main_v0 rfl shapeCasts_S128x4096x8x8_S128x4096x64,
    TRef.nullary main_call0.c (constantI S_ 32 0#32),
    TRef.unary main_call0.c main_call0.v0 (broadcastInDim S64 ![] bcast_S_S64),
    TRef.binary (.of main_c) main_call0.v0 main_call0.v1 (cmpi .slt),
    TRef.nullary main_call0.c_0 (constantI S_ 32 64#32),
    TRef.unary main_call0.c_0 main_call0.v2 (broadcastInDim S64 ![] bcast_S_S64),
    TRef.binary (.of main_c) main_call0.v2 main_call0.v3 addi,
    TRef.ternary main_call0.v1 main_call0.v3 (.of main_c) main_call0.call0.v0 select,
    TRef.unary main_call0.call0.v0 main_call0.v5 (broadcastInDim S64x1 ![0] bcast_S64_S64x1_0),
    TRef.nullary main_call0.c_1 (constantI S1 32 63#32),
    TRef.nullary main_call0.c_2 (constantI S_ 32 0#32),
    TRef.unary main_call0.c_2 main_call0.v6 (broadcastInDim S64x1 ![] bcast_S_S64x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S64x1 ![0, 1] bcast_S1x1_S64x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S64x1_S64_d1 h_S_),
    TRef.binary (.of main_v0) main_call0.v5 main_call0.v13 (fun x i => Host.gather gather_S128x4096x64_S64x1_S128x4096x64_01_2_n_n_2_1_12840961 x i),
    TRef.unary main_call0.v12 main_call0.v14 (broadcastInDim S128x4096x64 ![2] bcast_S64_S128x4096x64_2),
    TRef.nullary main_call0.cst (constant S_ .f32 0x7FC00000#32),
    TRef.unary main_call0.cst main_call0.v15 (broadcastInDim S128x4096x64 ![] bcast_S_S128x4096x64),
    TRef.ternary main_call0.v14 main_call0.v13 main_call0.v15 main_call0.v16 select ]

set_option maxRecDepth 1024 in
/-- @main is that straight line: with the two functions' definitions unfolded at their calls, both sides are one
    chain of `hlo` steps once sequencing is reassociated. -/
theorem main_eq (c : Dev nD) : main (F := F) c = seq ops := by
  simp only [main, fn_take.body, fn_where.body, seq, bind_assoc, pure_bind]

/-- No TensorCore buffer of the signature is scoped, -/
theorem scopedRefs_eq : (Finset.univ.filter fun b : Ref sig .tc => b.isScoped) = ∅ := by decide
/-- and no semaphore is. -/
theorem scopedSems_eq : (Finset.univ.filter fun sm : SemLoc sig => sm.isScoped .tc) = ∅ := by decide

/-- Every operation names TensorCore buffers only. -/
theorem ops_sub : (ops : List (HloOp τ sig (Elt F))).Forall fun op => op.bufs ⊆ tcRefs τ sig :=
  ⟨nullary_bufs_sub .., reshape_bufs_sub .., nullary_bufs_sub .., unary_bufs_sub .., binary_bufs_sub ..,
    nullary_bufs_sub .., unary_bufs_sub .., binary_bufs_sub .., ternary_bufs_sub .., unary_bufs_sub ..,
    nullary_bufs_sub .., nullary_bufs_sub .., unary_bufs_sub .., binary_bufs_sub .., unary_bufs_sub ..,
    unary_bufs_sub .., binary_bufs_sub .., binary_bufs_sub .., nullary_bufs_sub .., binary_bufs_sub ..,
    binary_bufs_sub .., unary_bufs_sub .., nullary_bufs_sub .., unary_bufs_sub .., ternary_bufs_sub ..⟩

/-- At the compiled mesh, for any float values, from any memory with zero counters: every weakly fair execution of
    @main on the TensorCores terminates, and every final state has each TensorCore buffer at the operations' fold over
    the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefValue.lean ====
/-
  The reference program's value.

  After the reference's twenty-five operations (RefRun.lean) the result buffer holds one function of the argument's
  contents `x : [128, 4096, 8, 8]`:

      select mask (gather (reshape x) idx) (constant),

  where `idx` is the constant index table normalised (`where(t < 0, t + 64, t)`) and laid out as a column, and `mask` is the
  test `0 ≤ idx ≤ 63` reduced by `and` along the column's axis of extent one and broadcast along the last axis.

  The table holds the zig-zag order: entry `j` is the word of `perm j`, a number below 64. So no entry is negative (the
  normalisation leaves each as it is), every entry passes the bounds test (the mask is one everywhere, the select takes the
  gathered value), and the gather's clamp of a start index into `[0, 63]` changes nothing. The gather has offset axes
  `[0, 1]` of full extent and collapses axis 2, its start index naming axis 2: result entry `(b, c, j)` is the operand's
  entry `(b, c, idx j)`. The reshape keeps row-major positions: entry `(b, c, k)` of `[128, 4096, 64]` is entry
  `(b, c, k / 8, k % 8)` of `[128, 4096, 8, 8]`. Together: result entry `(b, c, j)` is the argument's entry
  `(b, c, perm j / 8, perm j % 8)`, which is `Cert.ZigZag.G`.

  The three facts about the table's words are statements over the 64 positions, each decided by evaluation.
  The value is read at the exact reals' instance; nothing in the argument uses it beyond the statement's type.
-/
import proofs.«175661_g481036337610_cont_8to1c4_34_16_alg».proof.Proof.RefRun
import proofs.«175661_g481036337610_cont_8to1c4_34_16_alg».proof.Proof.ZigZag
import Idealize.ShloMosaic.Lib.ValueIdx
import Idealize.ShloMosaic.Lib.Pipeline.Value

noncomputable section

namespace Cert.ReferenceIdeal.RefValue

open Cert.ReferenceIdeal Cert.ReferenceIdeal.Gen Idealize.ShloMosaic Idealize.ShloMosaic.ValueIdx Cert.ZigZag
open Idealize.ShloMosaic.TcCoe Idealize.SL.Sem Idealize.ShloMosaic.StableHlo

/-! ## The gather read at an index -/

section Gather
variable {α : Type} {w : Nat}

/-- The gather's printed dimension numbers, under a short name: operand `[128, 4096, 64]`, start indices `[64, 1]`, result
    `[128, 4096, 64]`; offset axes `[0, 1]`, collapsed axis `[2]`, start index map `[2]`, the index vector on axis 1, slice
    sizes `[128, 4096, 1]`. -/
abbrev gd : GatherDims S128x4096x64 S64x1 S128x4096x64 := gather_S128x4096x64_S64x1_S128x4096x64_01_2_n_n_2_1_12840961

/-- On an operand axis the start index map does not name and that is kept (neither collapsed nor batching), the operand
    coordinate is the result's coordinate on the offset axis in that axis's position: the start is zero there. -/
theorem gather_start_off (idx : IVec S64x1 w) (i : S128x4096x64.Idx) (a : Fin 3) (ha : a ∉ gd.startIndexMap)
    (hk : a ∈ gd.sKept) :
    gd.start i idx a + gd.offCoord i a
      = (i (gd.offsetDims[gd.sKept.idxOf a]'(by rw [gd.offset_length]; exact List.idxOf_lt_length_iff.2 hk))).val := by
  have hs : gd.start i idx a = 0 := by
    unfold GatherDims.start
    exact dif_neg ha
  rw [hs, Nat.zero_add]
  unfold GatherDims.offCoord
  exact dif_pos hk

/-- THE GATHER READ AT `(b, c, j)`: the operand at `(b, c, k)`, `k` the start index `idx[j, 0]` read signed and clamped into
    `[0, 63]`. Axes 0 and 1 are offset axes of full extent (no start, no batching: the result's own coordinates); axis 2
    is collapsed and start-indexed (no offset: the clamped start), and the start index is read at the result's one batch
    coordinate `j`, component 0. -/
theorem gather_apply (x : S128x4096x64.Idx → α) (idx : IVec S64x1 w) (b : Fin 128) (c : Fin 4096) (j k : Fin 64)
    (hk : min (idx (ix2 j (0 : Fin 1))).toInt.toNat 63 = k.val) :
    Host.gather gd x idx (ix3 b c j) = x (ix3 b c k) := by
  unfold Host.gather
  congr 1
  funext a
  refine Fin.ext ?_
  show gd.start (ix3 b c j) idx a + gd.batchCoord (ix3 b c j) a + gd.offCoord (ix3 b c j) a = _
  rw [GatherDims.batchCoord_eq_zero _ _ _ List.not_mem_nil, Nat.add_zero]
  have h0 : gd.start (ix3 b c j) idx (0 : Fin 3) + gd.offCoord (ix3 b c j) (0 : Fin 3) = b.val :=
    gather_start_off idx (ix3 b c j) 0 (by decide) (by decide)
  have h1 : gd.start (ix3 b c j) idx (1 : Fin 3) + gd.offCoord (ix3 b c j) (1 : Fin 3) = c.val :=
    gather_start_off idx (ix3 b c j) 1 (by decide) (by decide)
  have h2 : gd.start (ix3 b c j) idx (2 : Fin 3) + gd.offCoord (ix3 b c j) (2 : Fin 3) = k.val := by
    rw [GatherDims.offCoord_eq_zero _ _ _ (fun h => ((GatherDims.mem_sKept _ _).mp h).1 (List.mem_singleton.mpr rfl)),
      Nat.add_zero]
    unfold GatherDims.start
    rw [dif_pos (show (2 : Fin 3) ∈ gd.startIndexMap from List.mem_singleton.mpr rfl)]
    have hsi : gd.siIdx (ix3 b c j) ⟨List.idxOf (2 : Fin 3) gd.startIndexMap,
        List.idxOf_lt_length_iff.2 (List.mem_singleton.mpr rfl)⟩ = ix2 j (0 : Fin 1) := by
      funext e; refine Fin.ext ?_
      match e with
      | ⟨0, _⟩ => rfl
      | ⟨1, _⟩ => rfl
    rw [hsi]
    exact hk
  match a with
  | ⟨0, _⟩ => exact h0
  | ⟨1, _⟩ => exact h1
  | ⟨2, _⟩ => exact h2

end Gather

/-! ## The reshape read at an index -/

/-- Entry `(b, c, k)` of the reshaped array is the tile entry `(k / 8, k % 8)` of block `(b, c)`: the two row-major
    positions are `(4096 b + c) · 64 + k` and `((4096 b + c) · 8 + k / 8) · 8 + k % 8`. -/
theorem reshape_apply {α : Type} (x : S128x4096x8x8.Idx → α) (b : Fin 128) (c : Fin 4096) (k : Fin 64) :
    shapeCast S128x4096x64 x shapeCasts_S128x4096x8x8_S128x4096x64 (ix3 b c k) = x (ix4 b c (hi k) (lo k)) := by
  refine shapeCast_apply x _ _ _ ?_
  rw [Shape.rowMajor_val_four, Shape.rowMajor_val_three]
  have := hi_lo k
  show ((b.val * 4096 + c.val) * 8 + (hi k).val) * 8 + (lo k).val = (b.val * 4096 + c.val) * 64 + k.val
  omega

/-! ## The index table's words -/

/-- Entry `j` of the table, normalised: `where(t < 0, t + 64, t)`. -/
abbrev W (j : Fin 64) : BitVec 32 := Scalar.select (IntOp.cmpi .slt (lit0 j) 0#32) (IntOp.addi (lit0 j) 64#32) (lit0 j)

set_option maxRecDepth 8192 in
/-- It is the zig-zag order's entry, as a word (none is negative), -/
theorem W_eq : ∀ j : Fin 64, W j = BitVec.ofNat 32 (permNat j.val) := by decide

set_option maxRecDepth 8192 in
/-- it passes the bounds test `0 ≤ · ≤ 63`, -/
theorem W_inb : ∀ j : Fin 64, IntOp.andi (IntOp.cmpi .sge (W j) 0#32) (IntOp.cmpi .sle (W j) 63#32) = 1#1 := by decide

set_option maxRecDepth 8192 in
/-- and read signed and clamped into `[0, 63]` it is that entry still. -/
theorem W_clamp : ∀ j : Fin 64, min (W j).toInt.toNat 63 = permNat j.val := by decide

/-- A vector's row-major position is its coordinate. -/
theorem rowMajor_ix1 (j : Fin 64) : S64.rowMajor (ix1 j) = j := Fin.ext (by rw [Shape.rowMajor_val_one])

/-- A left fold by `and` from one over words that are all one is one. -/
theorem foldl_andi_one {ι : Type} (f : ι → BitVec 1) (l : List ι) (hf : ∀ n ∈ l, f n = 1#1) :
    l.foldl (fun r n => IntOp.andi r (f n)) 1#1 = 1#1 := by
  induction l with
  | nil => rfl
  | cons a l ih =>
    rw [List.foldl_cons, hf a List.mem_cons_self]
    exact ih (fun n hn => hf n (List.mem_cons_of_mem _ hn))

/-! ## The operations' composed term -/

/-- The index table as the program's first operation writes it. -/
abbrev tbl : IVec S64 32 := fun i => lit0 (S64.rowMajor i)

/-- The indices normalised: `where(idx < 0, idx + 64, idx)`. -/
def idxNorm : IVec S64 32 :=
  select (cmpi .slt tbl (broadcastInDim S64 ![] bcast_S_S64 (constantI S_ 32 0#32)))
    (addi tbl (broadcastInDim S64 ![] bcast_S_S64 (constantI S_ 32 64#32))) tbl

/-- The same as a column: the gather's start indices. -/
def idxCol : IVec S64x1 32 := broadcastInDim S64x1 ![0] bcast_S64_S64x1_0 idxNorm

/-- The bounds test `0 ≤ idx ∧ idx ≤ 63` on that column. -/
def inb : IVec S64x1 1 :=
  andi (cmpi .sge idxCol (broadcastInDim S64x1 ![] bcast_S_S64x1 (constantI S_ 32 0#32)))
    (cmpi .sle idxCol (broadcastInDim S64x1 ![0, 1] bcast_S1x1_S64x1_0_1
      (broadcastInDim S1x1 ![1] bcast_S1_S1x1_1 (constantI S1 32 63#32))))

/-- The mask: the test reduced by `and` along the column's axis of extent one. -/
def mask : IVec S64 1 := Host.reduce IntOp.andi inb (constantI S_ 1 1#1) reducesTo_S64x1_S64_d1 h_S_

section Term
variable {F : FTy → Type} [FloatOps F]

/-- What the result buffer holds after the operations, as a function of the argument's contents. -/
def refTerm (x : (⟨S128x4096x8x8, .f32⟩ : BufTy).Contents (Elt F)) : (⟨S128x4096x64, .f32⟩ : BufTy).Contents (Elt F) :=
  select (broadcastInDim S128x4096x64 ![2] bcast_S64_S128x4096x64_2 mask)
    (Host.gather gd (shapeCast S128x4096x64 x shapeCasts_S128x4096x8x8_S128x4096x64) idxCol)
    (broadcastInDim S128x4096x64 ![] bcast_S_S128x4096x64 (constant S_ .f32 0x7FC00000#32))

attribute [local irreducible] Host.reduce Host.gather in
set_option maxRecDepth 8192 in
/-- The fold at the result buffer is that term. Each operation's result is its function's value at its own buffer and what
    was there at any other; a callee's operation moves contents between a value's type and its buffer's type, the same
    type at these literal buffers, so those transports are the identity and drop out; what is left is the term, spelt out.
    The reduce and the gather stay folded meanwhile (the equation never looks inside them). -/
theorem out_eq (V : Valuation τ sig (Elt F)) :
    after RefRun.ops V (main_v1 : DevRef τ sig) = refTerm (V (main_arg0 : DevRef τ sig)) := by
  after_results_simp
  unfold refTerm mask inb idxCol idxNorm
  simp only [TRef.toBuf, TRef.ofBuf, cast_eq]
  rfl

/-- The argument's buffer is written by no operation. -/
theorem arg0_eq (V : Valuation τ sig (Elt F)) :
    after RefRun.ops V (main_arg0 : DevRef τ sig) = V (main_arg0 : DevRef τ sig) := by
  after_results

end Term

/-! ## The term read at an index -/

/-- Start index `j` is the table's entry `j`, normalised. -/
theorem idxCol_apply (j : Fin 64) : idxCol (ix2 j (0 : Fin 1)) = W j := by
  have h : idxCol (ix2 j (0 : Fin 1)) = idxNorm (ix1 j) :=
    broadcastInDim_apply _ _ idxNorm _ (ix1 j) (fun a => by match a with | ⟨0, _⟩ => rfl)
  rw [h]
  show Scalar.select (IntOp.cmpi .slt (lit0 (S64.rowMajor (ix1 j))) 0#32)
    (IntOp.addi (lit0 (S64.rowMajor (ix1 j))) 64#32) (lit0 (S64.rowMajor (ix1 j))) = W j
  rw [rowMajor_ix1]

/-- Every start index is in bounds, -/
theorem inb_apply (i : S64x1.Idx) : inb i = 1#1 := by
  obtain ⟨p, q, rfl⟩ : ∃ (p : Fin 64) (q : Fin 1), i = ix2 p q := ⟨i 0, i 1, eq_ix2 i⟩
  obtain rfl : q = 0 := Subsingleton.elim _ _
  show IntOp.andi (IntOp.cmpi .sge (idxCol (ix2 p (0 : Fin 1))) 0#32) (IntOp.cmpi .sle (idxCol (ix2 p (0 : Fin 1))) 63#32) = 1#1
  rw [idxCol_apply]
  exact W_inb p

/-- so the mask is one everywhere. -/
theorem mask_apply (i : S64.Idx) : mask i = 1#1 := by
  unfold mask Host.reduce
  exact foldl_andi_one _ _ (fun n _ => inb_apply _)

/-- THE VALUE AT AN INDEX: entry `(b, c, j)` of the term is the argument's tile entry `perm j` of block `(b, c)` — the mask
    is one there, the gather reads the reshaped argument at `(b, c, perm j)`, the reshape reads the tile at row
    `perm j / 8`, column `perm j % 8`. -/
theorem refTerm_apply (x : (⟨S128x4096x8x8, .f32⟩ : BufTy).Contents (Elt Ideal)) (b : Fin 128) (c : Fin 4096) (j : Fin 64) :
    refTerm (F := Ideal) x (ix3 b c j) = x (ix4 b c (hi (perm j)) (lo (perm j))) := by
  unfold refTerm
  rw [select_apply]
  have hm : broadcastInDim S128x4096x64 ![2] bcast_S64_S128x4096x64_2 mask (ix3 b c j) = 1#1 := mask_apply _
  rw [hm, select_one, gather_apply _ idxCol b c j (perm j) (by rw [idxCol_apply]; exact W_clamp j)]
  exact reshape_apply x b c (perm j)

/-- The term is the zig-zag reorder of the argument. -/
theorem refTerm_eq (x : (⟨S128x4096x8x8, .f32⟩ : BufTy).Contents (Elt Ideal)) : refTerm (F := Ideal) x = Cert.ZigZag.G x := by
  funext i
  obtain ⟨b, c, j, rfl⟩ : ∃ (b : Fin 128) (c : Fin 4096) (j : Fin 64), i = ix3 b c j := ⟨i 0, i 1, i 2, eq_ix3 i⟩
  exact (refTerm_apply x b c j).trans (G_apply x b c j).symm

/-! ## The run -/

/-- At the compiled mesh, at the exact reals, from any memory with zero counters: every weakly fair execution of the
    reference's @main terminates with the result buffer at the zig-zag reorder of the argument's launch contents, and the
    argument's buffer unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v1) = Cert.ZigZag.G (m ((c.tc : Thread nD τ).loc main_arg0))
      ∧ r.2.mem ((c.tc : Thread nD τ).loc main_arg0) = m ((c.tc : Thread nD τ).loc main_arg0)) :=
  (θ_run defs _ _).mono (fun _ h c =>
      ⟨(h c main_v1).trans ((out_eq _).trans (refTerm_eq _)), (h c main_arg0).trans (arg0_eq _)⟩)
    (RefRun.run_main m ρ)

end Cert.ReferenceIdeal.RefValue

end
-- ==== Proof.lean ====
/-
  The zig-zag reorder of 8 × 8 tiles: a kernel that applies the fixed 64-entry permutation as a product with a 0/1 matrix,
  against `jnp.take` along the flattened tile axis.

  Both programs compute, for `x : [128, 4096, 8, 8]`, the array `G x : [128, 4096, 64]` whose entry `(b, c, j)` is
  `x (b, c, perm j / 8, perm j % 8)` (Proof/ZigZag.lean).

  * The kernel re-lays `x` as `[128, 8, 32, 8, 128]` (tile row, block number split in two, tile column, lanes), and on
    each group of four batches multiplies, for every `(b, sb, l)`, the 64-vector of tile entries by the matrix that has
    a single one in row `j` at column `perm j`. Over the extended reals that product is the sum `∑ k, [k = perm j] · w k`,
    which is `w (perm j)` for every `w`, infinite entries included (`0 · w = 0` and a sum of zeros and one term is that
    term), so no finiteness is used. The blocks tile the array and the two layout lines after the region undo the
    re-laying (Proof/Payload.lean, Proof/KernelArrays.lean, Proof/KernelBlocks.lean, Proof/KernelValue.lean).
  * The reference flattens each tile and gathers along the last axis at the indices `perm`; all 64 indices are in range,
    so the out-of-range mask of `jnp.take` is all true and the result is the gather (Proof/RefRun.lean, Proof/RefValue.lean).

  The frames of the two kernel programs are the generated ones; the reference's frame is its run with the result dropped;
  the idealized kernel is the printed kernel read over the extended reals with no rewrite, so `preserves` has nothing to state.
-/
import proofs.«175661_g481036337610_cont_8to1c4_34_16_alg».proof.Defs
import proofs.«175661_g481036337610_cont_8to1c4_34_16_alg».proof.Proof.Gen.Kernel
import proofs.«175661_g481036337610_cont_8to1c4_34_16_alg».proof.Proof.Gen.Kernel.Skeleton
import proofs.«175661_g481036337610_cont_8to1c4_34_16_alg».proof.Proof.Gen.Kernel.Launch
import proofs.«175661_g481036337610_cont_8to1c4_34_16_alg».proof.Proof.Gen.Kernel.Points
import proofs.«175661_g481036337610_cont_8to1c4_34_16_alg».proof.Proof.Gen.Kernel.Frame
import proofs.«175661_g481036337610_cont_8to1c4_34_16_alg».proof.Proof.Gen.KernelIdeal
import proofs.«175661_g481036337610_cont_8to1c4_34_16_alg».proof.Proof.Gen.KernelIdeal.Skeleton
import proofs.«175661_g481036337610_cont_8to1c4_34_16_alg».proof.Proof.Gen.KernelIdeal.Launch
import proofs.«175661_g481036337610_cont_8to1c4_34_16_alg».proof.Proof.Gen.KernelIdeal.Points
import proofs.«175661_g481036337610_cont_8to1c4_34_16_alg».proof.Proof.Gen.KernelIdeal.Frame
import proofs.«175661_g481036337610_cont_8to1c4_34_16_alg».proof.Proof.Gen.ReferenceIdeal
import proofs.«175661_g481036337610_cont_8to1c4_34_16_alg».proof.Proof.Gen.Pre_finite_inputs
import proofs.«175661_g481036337610_cont_8to1c4_34_16_alg».proof.Proof.KernelValue
import proofs.«175661_g481036337610_cont_8to1c4_34_16_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run to the reorder of the input, the result dropped. -/
theorem frame_reference : Cert.frame_ReferenceIdeal := fun m ρ _ =>
  (θ_run Cert.ReferenceIdeal.defs _ _).mono (fun _ h c => (h c).2) (Cert.ReferenceIdeal.RefValue.run m ρ)

/-- Both programs end with their result at `G` of the input; the inputs agree. -/
theorem algebraic : Cert.algebraic_KernelIdeal_ReferenceIdeal := by
  intro m ρ m' ρ' _ hagree
  refine ⟨fun c => Cert.ZigZag.G (m ((c.tc : Thread Cert.KernelIdeal.nD Cert.KernelIdeal.τ).loc Cert.KernelIdeal.main_arg0)),
    Cert.KernelIdeal.KValue.run m ρ, ?_⟩
  refine (θ_run Cert.ReferenceIdeal.defs _ _).mono (fun _ h c => ⟨(h c).1.trans ?_, (h c).2⟩)
    (Cert.ReferenceIdeal.RefValue.run m' ρ')
  rw [hagree c]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
